-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x10 : Shape := ⟨2, ![2048, 10]⟩
abbrev S50000x32 : Shape := ⟨2, ![50000, 32]⟩
abbrev S50000x256 : Shape := ⟨2, ![50000, 256]⟩
abbrev S8x128x256 : Shape := ⟨3, ![8, 128, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_
  bcast_S_S2048x10 : S_.BroadcastsInDim S2048x10 (![] : Fin 0 → Fin S2048x10.rank)
  reducesTo_S2048x10_S_d0_1 : S2048x10.ReducesTo [0, 1] S_
  bcast_S_S50000x32 : S_.BroadcastsInDim S50000x32 (![] : Fin 0 → Fin S50000x32.rank)
  reducesTo_S50000x32_S_d0_1 : S50000x32.ReducesTo [0, 1] S_

variable [Facts]

def fn_part1 {F : FTy → Type} [FloatOps F] (main_arg1 : IVec S50000x32 32) (main_v15 : IVec S_ 1) (main_c_5 : IVec S_ 32) : IVec S_ 1 :=
  let main_v16 : IVec S50000x32 32 := broadcastInDim S50000x32 ![] bcast_S_S50000x32 main_c_5
  let main_v17 : IVec S50000x32 1 := cmpi .sge main_arg1 main_v16
  let main_c_6 : IVec S_ 32 := constantI S_ 32 50000#32
  let main_v18 : IVec S50000x32 32 := broadcastInDim S50000x32 ![] bcast_S_S50000x32 main_c_6
  let main_v19 : IVec S50000x32 1 := cmpi .slt main_arg1 main_v18
  let main_v20 : IVec S50000x32 1 := andi main_v17 main_v19
  let main_c_7 : IVec S_ 1 := constantI S_ 1 1#1
  let main_v21 : IVec S_ 1 := (fun x v => Host.reduce IntOp.andi x v reducesTo_S50000x32_S_d0_1 h_S_) main_v20 main_c_7
  let main_v22 : IVec S_ 1 := andi main_v15 main_v21
  main_v22

def fn {F : FTy → Type} [FloatOps F] (main_arg0 : IVec S2048x10 32) (main_arg1 : IVec S50000x32 32) (main_arg2 : FVec F S50000x256 .f32) (main_arg3 : FVec F S8x128x256 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S8x128x256 .f32 := Host.absf main_arg3
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : IVec S_ 1 := andi main_v3 main_v7
  let main_c_2 : IVec S_ 32 := constantI S_ 32 4294917296#32
  let main_v9 : IVec S2048x10 32 := broadcastInDim S2048x10 ![] bcast_S_S2048x10 main_c_2
  let main_v10 : IVec S2048x10 1 := cmpi .sge main_arg0 main_v9
  let main_c_3 : IVec S_ 32 := constantI S_ 32 50000#32
  let main_v11 : IVec S2048x10 32 := broadcastInDim S2048x10 ![] bcast_S_S2048x10 main_c_3
  let main_v12 : IVec S2048x10 1 := cmpi .slt main_arg0 main_v11
  let main_v13 : IVec S2048x10 1 := andi main_v10 main_v12
  let main_c_4 : IVec S_ 1 := constantI S_ 1 1#1
  let main_v14 : IVec S_ 1 := (fun x v => Host.reduce IntOp.andi x v reducesTo_S2048x10_S_d0_1 h_S_) main_v13 main_c_4
  let main_v15 : IVec S_ 1 := andi main_v8 main_v14
  let main_c_5 : IVec S_ 32 := constantI S_ 32 4294917296#32
  fn_part1 (F := F) main_arg1 main_v15 main_c_5
-- ==== Kernel.lean ====
abbrev S2048x10 : Shape := ⟨2, ![2048, 10]⟩
abbrev S50000x32 : Shape := ⟨2, ![50000, 32]⟩
abbrev S50000x256 : Shape := ⟨2, ![50000, 256]⟩
abbrev S8x128x256 : Shape := ⟨3, ![8, 128, 256]⟩
abbrev S20480 : Shape := ⟨1, ![20480]⟩
abbrev S_ : Shape := ⟨0, ![]⟩
abbrev S20480x1 : Shape := ⟨2, ![20480, 1]⟩
abbrev S1 : Shape := ⟨1, ![1]⟩
abbrev S1x1 : Shape := ⟨2, ![1, 1]⟩
abbrev S20480x32 : Shape := ⟨2, ![20480, 32]⟩
abbrev S655360 : Shape := ⟨1, ![655360]⟩
abbrev S655360x1 : Shape := ⟨2, ![655360, 1]⟩
abbrev S655360x256 : Shape := ⟨2, ![655360, 256]⟩
abbrev S20480x32x256 : Shape := ⟨3, ![20480, 32, 256]⟩
abbrev S20480x256 : Shape := ⟨2, ![20480, 256]⟩
abbrev S1024x256 : Shape := ⟨2, ![1024, 256]⟩
abbrev S256x1024 : Shape := ⟨2, ![256, 1024]⟩
abbrev S20480x1024 : Shape := ⟨2, ![20480, 1024]⟩
abbrev S1024x1024 : Shape := ⟨2, ![1024, 1024]⟩
abbrev S2048x10x8x128 : Shape := ⟨4, ![2048, 10, 8, 128]⟩

abbrev nBuf : Space → Nat
  | .hbm => 62
  | .vmem => 5
  | .smem => 0
  | _ => 0

abbrev bufTy : (tb : Table) → Fin (tcTables nBuf tb) → BufTy
  | .hbm, ⟨0, _⟩ => ⟨S2048x10, .i32⟩
  | .hbm, ⟨1, _⟩ => ⟨S50000x32, .i32⟩
  | .hbm, ⟨2, _⟩ => ⟨S50000x256, .f32⟩
  | .hbm, ⟨3, _⟩ => ⟨S8x128x256, .f32⟩
  | .hbm, ⟨4, _⟩ => ⟨S20480, .i32⟩
  | .hbm, ⟨5, _⟩ => ⟨S_, .i32⟩
  | .hbm, ⟨6, _⟩ => ⟨S20480, .i32⟩
  | .hbm, ⟨7, _⟩ => ⟨S20480, .i1⟩
  | .hbm, ⟨8, _⟩ => ⟨S_, .i32⟩
  | .hbm, ⟨9, _⟩ => ⟨S20480, .i32⟩
  | .hbm, ⟨10, _⟩ => ⟨S20480, .i32⟩
  | .hbm, ⟨11, _⟩ => ⟨S20480, .i32⟩
  | .hbm, ⟨12, _⟩ => ⟨S20480x1, .i32⟩
  | .hbm, ⟨13, _⟩ => ⟨S1, .i32⟩
  | .hbm, ⟨14, _⟩ => ⟨S_, .i32⟩
  | .hbm, ⟨15, _⟩ => ⟨S20480x1, .i32⟩
  | .hbm, ⟨16, _⟩ => ⟨S20480x1, .i1⟩
  | .hbm, ⟨17, _⟩ => ⟨S1x1, .i32⟩
  | .hbm, ⟨18, _⟩ => ⟨S20480x1, .i32⟩
  | .hbm, ⟨19, _⟩ => ⟨S20480x1, .i1⟩
  | .hbm, ⟨20, _⟩ => ⟨S20480x1, .i1⟩
  | .hbm, ⟨21, _⟩ => ⟨S_, .i1⟩
  | .hbm, ⟨22, _⟩ => ⟨S20480, .i1⟩
  | .hbm, ⟨23, _⟩ => ⟨S20480x32, .i32⟩
  | .hbm, ⟨24, _⟩ => ⟨S20480x32, .i1⟩
  | .hbm, ⟨25, _⟩ => ⟨S_, .i32⟩
  | .hbm, ⟨26, _⟩ => ⟨S20480x32, .i32⟩
  | .hbm, ⟨27, _⟩ => ⟨S20480x32, .i32⟩
  | .hbm, ⟨28, _⟩ => ⟨S655360, .i32⟩
  | .hbm, ⟨29, _⟩ => ⟨S_, .i32⟩
  | .hbm, ⟨30, _⟩ => ⟨S655360, .i32⟩
  | .hbm, ⟨31, _⟩ => ⟨S655360, .i1⟩
  | .hbm, ⟨32, _⟩ => ⟨S_, .i32⟩
  | .hbm, ⟨33, _⟩ => ⟨S655360, .i32⟩
  | .hbm, ⟨34, _⟩ => ⟨S655360, .i32⟩
  | .hbm, ⟨35, _⟩ => ⟨S655360, .i32⟩
  | .hbm, ⟨36, _⟩ => ⟨S655360x1, .i32⟩
  | .hbm, ⟨37, _⟩ => ⟨S1, .i32⟩
  | .hbm, ⟨38, _⟩ => ⟨S_, .i32⟩
  | .hbm, ⟨39, _⟩ => ⟨S655360x1, .i32⟩
  | .hbm, ⟨40, _⟩ => ⟨S655360x1, .i1⟩
  | .hbm, ⟨41, _⟩ => ⟨S1x1, .i32⟩
  | .hbm, ⟨42, _⟩ => ⟨S655360x1, .i32⟩
  | .hbm, ⟨43, _⟩ => ⟨S655360x1, .i1⟩
  | .hbm, ⟨44, _⟩ => ⟨S655360x1, .i1⟩
  | .hbm, ⟨45, _⟩ => ⟨S_, .i1⟩
  | .hbm, ⟨46, _⟩ => ⟨S655360, .i1⟩
  | .hbm, ⟨47, _⟩ => ⟨S655360x256, .f32⟩
  | .hbm, ⟨48, _⟩ => ⟨S655360x256, .i1⟩
  | .hbm, ⟨49, _⟩ => ⟨S_, .f32⟩
  | .hbm, ⟨50, _⟩ => ⟨S655360x256, .f32⟩
  | .hbm, ⟨51, _⟩ => ⟨S655360x256, .f32⟩
  | .hbm, ⟨52, _⟩ => ⟨S20480x32x256, .f32⟩
  | .hbm, ⟨53, _⟩ => ⟨S_, .f32⟩
  | .hbm, ⟨54, _⟩ => ⟨S20480x256, .f32⟩
  | .hbm, ⟨55, _⟩ => ⟨S_, .f32⟩
  | .hbm, ⟨56, _⟩ => ⟨S20480x256, .f32⟩
  | .hbm, ⟨57, _⟩ => ⟨S20480x256, .f32⟩
  | .hbm, ⟨58, _⟩ => ⟨S1024x256, .f32⟩
  | .hbm, ⟨59, _⟩ => ⟨S256x1024, .f32⟩
  | .hbm, ⟨60, _⟩ => ⟨S20480x1024, .f32⟩
  | .hbm, ⟨61, _⟩ => ⟨S2048x10x8x128, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | _, _ => ⟨S2048x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_4 : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_cst : Ref sig .tc := ⟨.hbm, 53, rfl⟩
abbrev main_v5 : Ref sig .tc := ⟨.hbm, 54, rfl⟩
abbrev main_cst_0 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048x10_S20480 : S2048x10.ShapeCasts S20480
  bcast_S_S20480 : S_.BroadcastsInDim S20480 (![] : Fin 0 → Fin S20480.rank)
  bcast_S20480_S20480x1_0 : S20480.BroadcastsInDim S20480x1 (![0] : Fin 1 → Fin S20480x1.rank)
  bcast_S_S20480x1 : S_.BroadcastsInDim S20480x1 (![] : Fin 0 → Fin S20480x1.rank)
  bcast_S1_S1x1_1 : S1.BroadcastsInDim S1x1 (![1] : Fin 1 → Fin S1x1.rank)
  bcast_S1x1_S20480x1_0_1 : S1x1.BroadcastsInDim S20480x1 (![0, 1] : Fin 2 → Fin S20480x1.rank)
  reducesTo_S20480x1_S20480_d1 : S20480x1.ReducesTo [1] S20480
  h_S_ : 0 < S_.numel
  bcast_S20480_S20480x32_0 : S20480.BroadcastsInDim S20480x32 (![0] : Fin 1 → Fin S20480x32.rank)
  bcast_S_S20480x32 : S_.BroadcastsInDim S20480x32 (![] : Fin 0 → Fin S20480x32.rank)
  shapeCasts_S20480x32_S655360 : S20480x32.ShapeCasts S655360
  bcast_S_S655360 : S_.BroadcastsInDim S655360 (![] : Fin 0 → Fin S655360.rank)
  bcast_S655360_S655360x1_0 : S655360.BroadcastsInDim S655360x1 (![0] : Fin 1 → Fin S655360x1.rank)
  bcast_S_S655360x1 : S_.BroadcastsInDim S655360x1 (![] : Fin 0 → Fin S655360x1.rank)
  bcast_S1x1_S655360x1_0_1 : S1x1.BroadcastsInDim S655360x1 (![0, 1] : Fin 2 → Fin S655360x1.rank)
  reducesTo_S655360x1_S655360_d1 : S655360x1.ReducesTo [1] S655360
  bcast_S655360_S655360x256_0 : S655360.BroadcastsInDim S655360x256 (![0] : Fin 1 → Fin S655360x256.rank)
  bcast_S_S655360x256 : S_.BroadcastsInDim S655360x256 (![] : Fin 0 → Fin S655360x256.rank)
  shapeCasts_S655360x256_S20480x32x256 : S655360x256.ShapeCasts S20480x32x256
  reducesTo_S20480x32x256_S20480x256_d1 : S20480x32x256.ReducesTo [1] S20480x256
  bcast_S_S20480x256 : S_.BroadcastsInDim S20480x256 (![] : Fin 0 → Fin S20480x256.rank)
  shapeCasts_S8x128x256_S1024x256 : S8x128x256.ShapeCasts S1024x256
  transposes_S1024x256_S256x1024_1_0 : S1024x256.Transposes [1, 0] S256x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S20480x1024_S2048x10x8x128 : S20480x1024.ShapeCasts S2048x10x8x128
  gather_S50000x32_S20480x1_S20480x32_1_0_n_n_0_1_132_wf : GatherDims.WF S50000x32 S20480x1 S20480x32 [1] [0] [] [0] [] 1 ![1, 32]
  gather_S50000x256_S655360x1_S655360x256_1_0_n_n_0_1_1256_wf : GatherDims.WF S50000x256 S655360x1 S655360x256 [1] [0] [] [0] [] 1 ![1, 256]
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S20480x256.size a
  hwx0_0 : ∀ i : grid0.Coords, EltTy.bits .f32 = 32 ∨ (Rect.block (s := S20480x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S20480x1024.size a
  hwx0_2 : ∀ i : grid0.Coords, EltTy.bits .f32 = 32 ∨ (Rect.block (s := S20480x1024) S1024x1024.size (cc0_transform_2 i) (hinb0_2 i)).WholeWords (EltTy.packing .f32)

variable [Facts₀]

def gather_S50000x32_S20480x1_S20480x32_1_0_n_n_0_1_132 : GatherDims S50000x32 S20480x1 S20480x32 where
  offsetDims := [1]
  collapsedSliceDims := [0]
  operandBatchingDims := []
  startIndicesBatchingDims := []
  startIndexMap := [0]
  indexVectorDim := 1
  sliceSizes := ![1, 32]
  wf := gather_S50000x32_S20480x1_S20480x32_1_0_n_n_0_1_132_wf
def gather_S50000x256_S655360x1_S655360x256_1_0_n_n_0_1_1256 : GatherDims S50000x256 S655360x1 S655360x256 where
  offsetDims := [1]
  collapsedSliceDims := [0]
  operandBatchingDims := []
  startIndicesBatchingDims := []
  startIndexMap := [0]
  indexVectorDim := 1
  sliceSizes := ![1, 256]
  wf := gather_S50000x256_S655360x1_S655360x256_1_0_n_n_0_1_1256_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v7) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x10 : Shape := ⟨2, ![2048, 10]⟩
abbrev S50000x32 : Shape := ⟨2, ![50000, 32]⟩
abbrev S50000x256 : Shape := ⟨2, ![50000, 256]⟩
abbrev S8x128x256 : Shape := ⟨3, ![8, 128, 256]⟩
abbrev S20480 : Shape := ⟨1, ![20480]⟩
abbrev S_ : Shape := ⟨0, ![]⟩
abbrev S20480x1 : Shape := ⟨2, ![20480, 1]⟩
abbrev S20480x32 : Shape := ⟨2, ![20480, 32]⟩
abbrev S20480x32x1 : Shape := ⟨3, ![20480, 32, 1]⟩
abbrev S20480x32x256 : Shape := ⟨3, ![20480, 32, 256]⟩
abbrev S20480x256 : Shape := ⟨2, ![20480, 256]⟩
abbrev S20480x8x128 : Shape := ⟨3, ![20480, 8, 128]⟩
abbrev S2048x10x8x128 : Shape := ⟨4, ![2048, 10, 8, 128]⟩

abbrev nBuf : Space → Nat
  | .hbm => 33
  | .vmem => 0
  | .smem => 0
  | _ => 0

abbrev bufTy : (tb : Table) → Fin (tcTables nBuf tb) → BufTy
  | .hbm, ⟨0, _⟩ => ⟨S2048x10, .i32⟩
  | .hbm, ⟨1, _⟩ => ⟨S50000x32, .i32⟩
  | .hbm, ⟨2, _⟩ => ⟨S50000x256, .f32⟩
  | .hbm, ⟨3, _⟩ => ⟨S8x128x256, .f32⟩
  | .hbm, ⟨4, _⟩ => ⟨S20480, .i32⟩
  | .hbm, ⟨5, _⟩ => ⟨S_, .i32⟩
  | .hbm, ⟨6, _⟩ => ⟨S20480, .i32⟩
  | .hbm, ⟨7, _⟩ => ⟨S20480, .i1⟩
  | .hbm, ⟨8, _⟩ => ⟨S_, .i32⟩
  | .hbm, ⟨9, _⟩ => ⟨S20480, .i32⟩
  | .hbm, ⟨10, _⟩ => ⟨S20480, .i32⟩
  | .hbm, ⟨11, _⟩ => ⟨S20480, .i32⟩
  | .hbm, ⟨12, _⟩ => ⟨S20480x1, .i32⟩
  | .hbm, ⟨13, _⟩ => ⟨S20480x32, .i32⟩
  | .hbm, ⟨14, _⟩ => ⟨S_, .i32⟩
  | .hbm, ⟨15, _⟩ => ⟨S20480x32, .i32⟩
  | .hbm, ⟨16, _⟩ => ⟨S20480x32, .i1⟩
  | .hbm, ⟨17, _⟩ => ⟨S_, .i32⟩
  | .hbm, ⟨18, _⟩ => ⟨S20480x32, .i32⟩
  | .hbm, ⟨19, _⟩ => ⟨S20480x32, .i32⟩
  | .hbm, ⟨20, _⟩ => ⟨S20480x32, .i32⟩
  | .hbm, ⟨21, _⟩ => ⟨S20480x32x1, .i32⟩
  | .hbm, ⟨22, _⟩ => ⟨S20480x32x256, .f32⟩
  | .hbm, ⟨23, _⟩ => ⟨S_, .f32⟩
  | .hbm, ⟨24, _⟩ => ⟨S20480x256, .f32⟩
  | .hbm, ⟨25, _⟩ => ⟨S_, .f32⟩
  | .hbm, ⟨26, _⟩ => ⟨S20480x256, .f32⟩
  | .hbm, ⟨27, _⟩ => ⟨S20480x256, .f32⟩
  | .hbm, ⟨28, _⟩ => ⟨S20480x8x128, .f32⟩
  | .hbm, ⟨29, _⟩ => ⟨S_, .f32⟩
  | .hbm, ⟨30, _⟩ => ⟨S20480x8x128, .f32⟩
  | .hbm, ⟨31, _⟩ => ⟨S20480x8x128, .f32⟩
  | .hbm, ⟨32, _⟩ => ⟨S2048x10x8x128, .f32⟩
  | _, _ => ⟨S2048x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  shapeCasts_S2048x10_S20480 : S2048x10.ShapeCasts S20480
  bcast_S_S20480 : S_.BroadcastsInDim S20480 (![] : Fin 0 → Fin S20480.rank)
  bcast_S20480_S20480x1_0 : S20480.BroadcastsInDim S20480x1 (![0] : Fin 1 → Fin S20480x1.rank)
  bcast_S_S20480x32 : S_.BroadcastsInDim S20480x32 (![] : Fin 0 → Fin S20480x32.rank)
  bcast_S20480x32_S20480x32x1_0_1 : S20480x32.BroadcastsInDim S20480x32x1 (![0, 1] : Fin 2 → Fin S20480x32x1.rank)
  reducesTo_S20480x32x256_S20480x256_d1 : S20480x32x256.ReducesTo [1] S20480x256
  h_S_ : 0 < S_.numel
  bcast_S_S20480x256 : S_.BroadcastsInDim S20480x256 (![] : Fin 0 → Fin S20480x256.rank)
  bcast_S_S20480x8x128 : S_.BroadcastsInDim S20480x8x128 (![] : Fin 0 → Fin S20480x8x128.rank)
  shapeCasts_S20480x8x128_S2048x10x8x128 : S20480x8x128.ShapeCasts S2048x10x8x128
  gather_S50000x32_S20480x1_S20480x32_1_0_n_n_0_1_132_wf : GatherDims.WF S50000x32 S20480x1 S20480x32 [1] [0] [] [0] [] 1 ![1, 32]
  gather_S50000x256_S20480x32x1_S20480x32x256_2_0_n_n_0_2_1256_wf : GatherDims.WF S50000x256 S20480x32x1 S20480x32x256 [2] [0] [] [0] [] 2 ![1, 256]
  dot_S20480x256_S8x128x256_S20480x8x128_1_2_0_01_n_n_wf : DotDims.WF S20480x256 S8x128x256 S20480x8x128 [1] [2] [0] [0, 1] [] []

variable [Facts₀]

def gather_S50000x32_S20480x1_S20480x32_1_0_n_n_0_1_132 : GatherDims S50000x32 S20480x1 S20480x32 where
  offsetDims := [1]
  collapsedSliceDims := [0]
  operandBatchingDims := []
  startIndicesBatchingDims := []
  startIndexMap := [0]
  indexVectorDim := 1
  sliceSizes := ![1, 32]
  wf := gather_S50000x32_S20480x1_S20480x32_1_0_n_n_0_1_132_wf
def gather_S50000x256_S20480x32x1_S20480x32x256_2_0_n_n_0_2_1256 : GatherDims S50000x256 S20480x32x1 S20480x32x256 where
  offsetDims := [2]
  collapsedSliceDims := [0]
  operandBatchingDims := []
  startIndicesBatchingDims := []
  startIndexMap := [0]
  indexVectorDim := 2
  sliceSizes := ![1, 256]
  wf := gather_S50000x256_S20480x32x1_S20480x32x256_2_0_n_n_0_2_1256_wf
def dot_S20480x256_S8x128x256_S20480x8x128_1_2_0_01_n_n : DotDims S20480x256 S8x128x256 S20480x8x128 where
  lhsContracting := [1]
  rhsContracting := [2]
  lhsNonContracting := [0]
  rhsNonContracting := [0, 1]
  lhsBatch := []
  rhsBatch := []
  wf := dot_S20480x256_S8x128x256_S20480x8x128_1_2_0_01_n_n_wf

class Facts : Prop extends Facts₀ where

variable [Facts]
-- ==== Proof.Spec.lean ====
/-
  What both programs compute, as one function of the four argument arrays, entry by entry over the extended reals.

  A node list of 2048 x 10 nodes is read flat: node n = 10 b + s. Every node has 32 neighbours, listed in row
  nodes[n] of the adjacency table; every neighbour has a row of 256 features. Node n's pooled feature d is the mean,
  over its 32 neighbours, of feature d of the neighbour's row. The result at (b, s, c, k) is the positive part of the
  inner product, over the 256 features, of node n's pooled features with row (c, k) of the weights.

  An index into a 50000-row table is first wrapped the way array indexing wraps a negative index (x + 50000 when
  x < 0), then read signed and clamped into the table: that is the row a gather reads, whatever the word is.
  For a word x with -50000 <= x < 50000 (`InRange`) the wrapped word is already a row number, so nothing is clamped.
-/
import Idealize.ShloMosaic.Lib.ValueIdx
import Idealize.ShloMosaic.PureOps.Ideal.Laws

noncomputable section

namespace Cert.Spec

open Idealize.ShloMosaic Idealize.ShloMosaic.ValueIdx

/-- A negative index counts from the end of a 50000-row table: x + 50000 when x < 0 (signed), else x. -/
def wrapW (x : BitVec 32) : BitVec 32 :=
  Scalar.select (IntOp.cmpi .slt x 0#32) (IntOp.addi x 50000#32) x

/-- The row of a 50000-row table that a gather started at the word x reads: the wrapped word, read signed and
    clamped into [0, 49999]. -/
def rowOf (x : BitVec 32) : Fin 50000 := ⟨min (wrapW x).toInt.toNat (50000 - 1), by omega⟩

/-- The words that index a 50000-row table without leaving it: -50000 <= x < 50000, read signed. -/
def InRange (x : BitVec 32) : Prop := -50000 ≤ x.toInt ∧ x.toInt < 50000

/-- The n-th node of the 2048 x 10 node list read flat, row by row. -/
def nodeAt (nodes : IVec ⟨2, ![2048, 10]⟩ 32) (n : Fin 20480) : BitVec 32 :=
  nodes (ix2 ⟨n.val / 10, by have := n.isLt; omega⟩ ⟨n.val % 10, by omega⟩)

/-- The j-th neighbour of node n: entry j of the adjacency row of the node's index. -/
def neigh (nodes : IVec ⟨2, ![2048, 10]⟩ 32) (adj : IVec ⟨2, ![50000, 32]⟩ 32) (n : Fin 20480) (j : Fin 32) :
    BitVec 32 :=
  adj (ix2 (rowOf (nodeAt nodes n)) j)

/-- Node n's pooled feature d: the sum over its 32 neighbours of feature d of the neighbour's row, started at
    zero, divided by 32. -/
def feat (nodes : IVec ⟨2, ![2048, 10]⟩ 32) (adj : IVec ⟨2, ![50000, 32]⟩ 32)
    (features : (⟨2, ![50000, 256]⟩ : Shape).Idx → EReal) (n : Fin 20480) (d : Fin 256) : EReal :=
  Ideal.div (Ideal.ofBits .f32 0x00000000#32 + ∑ j : Fin 32, features (ix2 (rowOf (neigh nodes adj n j)) d))
    (Ideal.ofBits .f32 0x42000000#32)

/-- Node n against weight row (c, k): the positive part of the inner product over the 256 features. -/
def out (nodes : IVec ⟨2, ![2048, 10]⟩ 32) (adj : IVec ⟨2, ![50000, 32]⟩ 32)
    (features : (⟨2, ![50000, 256]⟩ : Shape).Idx → EReal) (W : (⟨3, ![8, 128, 256]⟩ : Shape).Idx → EReal)
    (n : Fin 20480) (c : Fin 8) (k : Fin 128) : EReal :=
  max (∑ d : Fin 256, feat nodes adj features n d * W (ix3 c k d)) (Ideal.ofBits .f32 0x00000000#32)

/-- The same with the weight rows read flat, 128 c + k = j: the 20480 x 1024 matrix a single product computes. -/
def outFlat (nodes : IVec ⟨2, ![2048, 10]⟩ 32) (adj : IVec ⟨2, ![50000, 32]⟩ 32)
    (features : (⟨2, ![50000, 256]⟩ : Shape).Idx → EReal) (W : (⟨3, ![8, 128, 256]⟩ : Shape).Idx → EReal) :
    (⟨2, ![20480, 1024]⟩ : Shape).Idx → EReal :=
  fun y => out nodes adj features W (y 0)
    ⟨(y 1).val / 128, by have h : (y 1).val < 1024 := (y 1).isLt; omega⟩ ⟨(y 1).val % 128, by omega⟩

/-- The positive part of the product of a 20480 x 256 matrix with a 256 x 1024 matrix, entry by entry. -/
def prodRelu (A : (⟨2, ![20480, 256]⟩ : Shape).Idx → EReal) (B : (⟨2, ![256, 1024]⟩ : Shape).Idx → EReal) :
    (⟨2, ![20480, 1024]⟩ : Shape).Idx → EReal :=
  fun y => max (∑ d : Fin 256, A (ix2 (y 0) d) * B (ix2 d (y 1))) (Ideal.ofBits .f32 0x00000000#32)

/-- A 20480 x 1024 matrix laid out as [2048, 10, 8, 128] in row-major order: entry (b, s, c, k) is entry
    (10 b + s, 128 c + k) of the matrix. -/
def relaid (X : (⟨2, ![20480, 1024]⟩ : Shape).Idx → EReal) : (⟨4, ![2048, 10, 8, 128]⟩ : Shape).Idx → EReal :=
  fun i => X (ix2
    ⟨(i 0).val * 10 + (i 1).val, by
      have h0 : (i 0).val < 2048 := (i 0).isLt
      have h1 : (i 1).val < 10 := (i 1).isLt
      omega⟩
    ⟨(i 2).val * 128 + (i 3).val, by
      have h2 : (i 2).val < 8 := (i 2).isLt
      have h3 : (i 3).val < 128 := (i 3).isLt
      omega⟩)

/-- The result array [2048, 10, 8, 128]: entry (b, s, c, k) is node 10 b + s against weight row (c, k). -/
def G (nodes : IVec ⟨2, ![2048, 10]⟩ 32) (adj : IVec ⟨2, ![50000, 32]⟩ 32)
    (features : (⟨2, ![50000, 256]⟩ : Shape).Idx → EReal) (W : (⟨3, ![8, 128, 256]⟩ : Shape).Idx → EReal) :
    (⟨4, ![2048, 10, 8, 128]⟩ : Shape).Idx → EReal :=
  fun i => out nodes adj features W
    ⟨(i 0).val * 10 + (i 1).val, by
      have h0 : (i 0).val < 2048 := (i 0).isLt
      have h1 : (i 1).val < 10 := (i 1).isLt
      omega⟩ (i 2) (i 3)

end Cert.Spec

end
-- ==== Proof.PreRange.lean ====
/-
  Index words in range, and what the wrap does to them.

  A word x with -50000 <= x < 50000 (signed) wraps to x + 50000 when it is negative and to itself otherwise; the sum
  does not overflow 32 bits, so the wrapped word read signed is a row number of a 50000-row table, 0 <= . < 50000.
  Hence the two range tests a masked read makes on the wrapped word (0 <= . and . <= 49999) both hold.

  The printed precondition is a conjunction of four "all entries" tests, each a reduction by "and" over every axis;
  the third and the fourth say, of every entry of the node list and of the adjacency table, that it is at least
  -50000 and below 50000 (signed). Read back entry by entry they are the range statement above.
-/
import Idealize.ShloMosaic.Lib.ReduceAll
import Idealize.ShloMosaic.Lib.WordArith
import Idealize.ShloMosaic.Lib.ValueIdx
import proofs.«427126_j1400159339188_1_alg».proof.Pre_finite_inputs
import proofs.«427126_j1400159339188_1_alg».proof.Proof.Spec

namespace Cert.PreRange

open Idealize.ShloMosaic Idealize.ShloMosaic.ValueIdx Idealize.ShloMosaic.WordArith Cert.Spec

/-! ## Literals read signed -/

theorem toInt_zero : (0#32 : BitVec 32).toInt = 0 := by decide
theorem toInt_50000 : (50000#32 : BitVec 32).toInt = 50000 := by decide
theorem toInt_49999 : (49999#32 : BitVec 32).toInt = 49999 := by decide
theorem toInt_neg50000 : (4294917296#32 : BitVec 32).toInt = -50000 := by decide

/-! ## The wrap of a word in range -/

/-- The wrapped word read signed: x + 50000 for a negative x, x otherwise (no overflow: x >= -50000). -/
theorem wrapW_toInt_eq {x : BitVec 32} (h : InRange x) :
    (wrapW x).toInt = if x.toInt < 0 then x.toInt + 50000 else x.toInt := by
  obtain ⟨h1, h2⟩ := h
  unfold wrapW Scalar.select
  by_cases hc : x.toInt < 0
  · have hb : IntOp.cmpi .slt x 0#32 = (1 : BitVec 1) := IntOp.cmpi_slt.2 (by rw [toInt_zero]; exact hc)
    rw [if_pos hb, if_pos hc]
    show (x + 50000#32).toInt = _
    rw [toInt_add_of_bounds x _ (by rw [toInt_50000]; omega) (by rw [toInt_50000]; omega), toInt_50000]
  · have hb : ¬ IntOp.cmpi .slt x 0#32 = (1 : BitVec 1) := fun e => hc (by
      have := IntOp.cmpi_slt.1 e; rwa [toInt_zero] at this)
    rw [if_neg hb, if_neg hc]

/-- The wrapped word is a row number: 0 <= . < 50000. -/
theorem wrapW_toInt {x : BitVec 32} (h : InRange x) : 0 ≤ (wrapW x).toInt ∧ (wrapW x).toInt < 50000 := by
  rw [wrapW_toInt_eq h]
  obtain ⟨h1, h2⟩ := h
  split <;> omega

/-- Both range tests on the wrapped word hold, so their conjunction is the bit 1. -/
theorem mask_one {x : BitVec 32} (h : InRange x) :
    IntOp.andi (IntOp.cmpi .sge (wrapW x) 0#32) (IntOp.cmpi .sle (wrapW x) 49999#32) = 1#1 := by
  obtain ⟨a, b⟩ := wrapW_toInt h
  rw [IntOp.andi_eq_one, IntOp.cmpi_sge, IntOp.cmpi_sle, toInt_zero, toInt_49999]
  omega

/-! ## The printed precondition, read back -/

instance : Subsingleton Cert.Pre_finite_inputs.S_.Idx := ⟨fun a b => funext fun d => d.elim0⟩

/-- One "all entries" test of the precondition: the reduction by "and", over every axis, of the entrywise
    conjunction of (entry >= -50000) and (entry < 50000) came out 1, so every entry is in range. -/
theorem inRange_of_all {s : Shape} {axes : List (Fin s.rank)}
    (hb : Cert.Pre_finite_inputs.S_.BroadcastsInDim s (![] : Fin 0 → Fin s.rank))
    (hr : s.ReducesTo axes Cert.Pre_finite_inputs.S_) (h0 : 0 < Cert.Pre_finite_inputs.S_.numel) (a : IVec s 32)
    (e : Host.reduce IntOp.andi
        (andi (cmpi .sge a (broadcastInDim s ![] hb (constantI Cert.Pre_finite_inputs.S_ 32 4294917296#32)))
          (cmpi .slt a (broadcastInDim s ![] hb (constantI Cert.Pre_finite_inputs.S_ 32 50000#32))))
        (constantI Cert.Pre_finite_inputs.S_ 1 1#1) hr h0 ix0 = 1#1) (i : s.Idx) : InRange (a i) := by
  have hi := Host.reduce_andi_all _ _ hr h0 ix0 e i
  have hi' : IntOp.andi (IntOp.cmpi .sge (a i) 4294917296#32) (IntOp.cmpi .slt (a i) 50000#32) = 1#1 := hi
  rw [IntOp.andi_eq_one, IntOp.cmpi_sge, IntOp.cmpi_slt, toInt_neg50000, toInt_50000] at hi'
  exact hi'

/-- The precondition holds: every entry of the node list and of the adjacency table is in range. -/
theorem ranges_of_pre {F : FTy → Type} [FloatOps F] [Cert.Pre_finite_inputs.Facts]
    (a0 : IVec Cert.Pre_finite_inputs.S2048x10 32) (a1 : IVec Cert.Pre_finite_inputs.S50000x32 32)
    (a2 : FVec F Cert.Pre_finite_inputs.S50000x256 .f32) (a3 : FVec F Cert.Pre_finite_inputs.S8x128x256 .f32)
    (h : Cert.Pre_finite_inputs.fn (F := F) a0 a1 a2 a3 = fun _ => 1#1) :
    (∀ i, InRange (a0 i)) ∧ (∀ i, InRange (a1 i)) := by
  have e := congrFun h ix0
  dsimp only [Cert.Pre_finite_inputs.fn, Cert.Pre_finite_inputs.fn_part1] at e
  obtain ⟨e01, e1⟩ := IntOp.andi_eq_one.1 e
  obtain ⟨-, e0⟩ := IntOp.andi_eq_one.1 e01
  exact ⟨inRange_of_all _ _ _ a0 e0, inRange_of_all _ _ _ a1 e1⟩

/-! ## The other way: a reduction by "and" of bits that are all 1 -/

/-- A left fold by "and" over one-bit words, started at 1 and meeting only 1s, is 1. -/
theorem foldl_andi_one {ι : Type} (f : ι → BitVec 1) (hf : ∀ n, f n = 1#1) :
    ∀ (l : List ι) (acc : BitVec 1), acc = 1#1 → l.foldl (fun r n => IntOp.andi r (f n)) acc = 1#1
  | [], _, h => h
  | a :: l, acc, h => by
    rw [List.foldl_cons]
    exact foldl_andi_one f hf l _ (IntOp.andi_eq_one.2 ⟨h, hf a⟩)

/-- A reduction by "and" whose starting bit is 1 and whose operand bits are all 1 is 1 at every result index. -/
theorem reduce_andi_one {s t u : Shape} {axes : List (Fin s.rank)} (x : s.Idx → BitVec 1) (init : u.Idx → BitVec 1)
    (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl]
  exact foldl_andi_one x hx _ _ hinit

end Cert.PreRange
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.RefValue.lean ====
/-
  The reference program computes the specification.

  The reference reads the 2048 x 10 node list flat (node n = 10 b + s is entry (n / 10, n % 10)), wraps each node
  word (x + 50000 when x < 0), gathers row min(word, 49999) of the adjacency table (a gather reads its start index
  signed and clamps it into the table), wraps each of the 32 neighbour words the same way, gathers the neighbours'
  feature rows, adds the 32 rows up from zero and divides by 32, takes the inner product over the 256 features with
  every weight row (c, k), keeps the positive part, and finally lays the [20480, 8, 128] result out as
  [2048, 10, 8, 128] in row-major order. Read at one entry, every stage is the corresponding term of the
  specification, so the whole program is the specification's result array.

  The second gather has start indices of shape [E, J, 1]; its reading at an entry is proved first, for any sizes.
-/
import proofs.«427126_j1400159339188_1_alg».proof.Proof.Gen.ReferenceIdeal.Read
import proofs.«427126_j1400159339188_1_alg».proof.Proof.Spec
import proofs.«427126_j1400159339188_1_alg».proof.Proof.LibRowGatherScatter

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## A row gather at start indices of shape [E, J, 1] -/

section RowGather3

/-- The dimension numbers of a row gather over an operand [N, W], start indices [E, J, 1] and a result [E, J, W]:
    offset axis 2, collapsed axis 0, start index map [0], index vector axis 2, slice sizes [1, W]. -/
abbrev ga3D (N E J W : Nat)
    (wfg : GatherDims.WF ⟨2, ![N, W]⟩ ⟨3, ![E, J, 1]⟩ ⟨3, ![E, J, W]⟩ [2] [0] [] [0] [] 2 ![1, W]) :
    GatherDims ⟨2, ![N, W]⟩ ⟨3, ![E, J, 1]⟩ ⟨3, ![E, J, W]⟩ where
  offsetDims := [2]
  collapsedSliceDims := [0]
  operandBatchingDims := []
  startIndicesBatchingDims := []
  startIndexMap := [0]
  indexVectorDim := 2
  sliceSizes := ![1, W]
  wf := wfg

variable {N E J W w : Nat}
  (wfg : GatherDims.WF ⟨2, ![N, W]⟩ ⟨3, ![E, J, 1]⟩ ⟨3, ![E, J, W]⟩ [2] [0] [] [0] [] 2 ![1, W])

/-- On the row axis the slice of result (e, j, q) starts at idx[e, j, 0], read signed and clamped into [0, N - 1]. -/
theorem ga3_start0 (idx : IVec ⟨3, ![E, J, 1]⟩ w) (e : Fin E) (j : Fin J) (q : Fin W) :
    (ga3D N E J W wfg).start (ix3 e j q) idx 0 = min (idx (ix3 e j 0)).toInt.toNat (N - 1) := by
  unfold GatherDims.start
  rw [dif_pos (show (0 : Fin 2) ∈ (ga3D N E J W wfg).startIndexMap from List.mem_singleton.mpr rfl)]
  have hsi : (ga3D N E J W wfg).siIdx (ix3 e j q) ⟨List.idxOf (0 : Fin 2) (ga3D N E J W wfg).startIndexMap,
      List.idxOf_lt_length_iff.2 (List.mem_singleton.mpr rfl)⟩ = ix3 e j 0 := by
    funext b
    refine Fin.ext ?_
    match b with
    | ⟨0, _⟩ => rfl
    | ⟨1, _⟩ => rfl
    | ⟨2, _⟩ => rfl
  rw [hsi]
  rfl

/-- On the column axis every slice starts at 0. -/
theorem ga3_start1 (idx : IVec ⟨3, ![E, J, 1]⟩ w) (e : Fin E) (j : Fin J) (q : Fin W) :
    (ga3D N E J W wfg).start (ix3 e j q) idx 1 = 0 := by
  unfold GatherDims.start
  rw [dif_neg (show (1 : Fin 2) ∉ ([0] : List (Fin 2)) by decide)]

/-- The row axis is collapsed: the offset coordinate there is 0. -/
theorem ga3_off0 (e : Fin E) (j : Fin J) (q : Fin W) : (ga3D N E J W wfg).offCoord (ix3 e j q) 0 = 0 := by
  unfold GatherDims.offCoord
  have h : (0 : Fin 2) ∉ (ga3D N E J W wfg).sKept :=
    (by decide : (0 : Fin 2) ∉ (List.finRange 2).filter (fun a => a ∉ ([0] ++ [] : List (Fin 2))))
  rw [dif_neg h]

/-- On the column axis the offset coordinate of result (e, j, q) is q. -/
theorem ga3_off1 (e : Fin E) (j : Fin J) (q : Fin W) : (ga3D N E J W wfg).offCoord (ix3 e j q) 1 = q.val := by
  unfold GatherDims.offCoord
  have h : (1 : Fin 2) ∈ (ga3D N E J W wfg).sKept :=
    (by decide : (1 : Fin 2) ∈ (List.finRange 2).filter (fun a => a ∉ ([0] ++ [] : List (Fin 2))))
  rw [dif_pos h]
  rfl

/-- The gather at (e, j, q): the operand at row min(idx[e, j, 0], N - 1), column q. -/
theorem ga3_apply {α : Type} (hN : 0 < N) (H : (⟨2, ![N, W]⟩ : Shape).Idx → α) (idx : IVec ⟨3, ![E, J, 1]⟩ w)
    (e : Fin E) (j : Fin J) (q : Fin W) :
    Host.gather (ga3D N E J W wfg) H idx (ix3 e j q)
      = H (ix2 ⟨min (idx (ix3 e j 0)).toInt.toNat (N - 1), by omega⟩ q) := by
  unfold Host.gather
  congr 1
  funext a
  refine Fin.ext ?_
  rcases Cert.Lib.RowPass.fin2_cases a with rfl | rfl
  · show (ga3D N E J W wfg).start (ix3 e j q) idx 0 + (ga3D N E J W wfg).batchCoord (ix3 e j q) 0
      + (ga3D N E J W wfg).offCoord (ix3 e j q) 0 = min (idx (ix3 e j 0)).toInt.toNat (N - 1)
    rw [ga3_start0, ga3_off0, GatherDims.batchCoord_eq_zero _ _ _ List.not_mem_nil, Nat.add_zero]
  · show (ga3D N E J W wfg).start (ix3 e j q) idx 1 + (ga3D N E J W wfg).batchCoord (ix3 e j q) 1
      + (ga3D N E J W wfg).offCoord (ix3 e j q) 1 = q.val
    rw [ga3_start1, ga3_off1, GatherDims.batchCoord_eq_zero _ _ _ List.not_mem_nil]
    omega

end RowGather3

/-! ## The program's two gathers are row gathers -/

theorem rec7_eq : gather_S50000x32_S20480x1_S20480x32_1_0_n_n_0_1_132
    = Cert.Lib.RowPass.gaD 50000 20480 32 Gen.gather_S50000x32_S20480x1_S20480x32_1_0_n_n_0_1_132_wf := rfl

theorem rec14_eq : gather_S50000x256_S20480x32x1_S20480x32x256_2_0_n_n_0_2_1256
    = ga3D 50000 20480 32 256 Gen.gather_S50000x256_S20480x32x1_S20480x32x256_2_0_n_n_0_2_1256_wf := rfl

/-! ## The stages, read at an entry -/

section Stages

variable (x0 : (⟨S2048x10, .i32⟩ : BufTy).Contents (Elt Ideal)) (x1 : (⟨S50000x32, .i32⟩ : BufTy).Contents (Elt Ideal))
  (x2 : (⟨S50000x256, .f32⟩ : BufTy).Contents (Elt Ideal)) (x3 : (⟨S8x128x256, .f32⟩ : BufTy).Contents (Elt Ideal))

/-- The flat node list at n is node n of the 2048 x 10 list. -/
theorem v0_eq (n : Fin 20480) : val_main_v0 (F := Ideal) x0 (ix1 n) = Spec.nodeAt x0 n := by
  rw [val_main_v0_apply]
  unfold Spec.nodeAt
  exact congrArg x0 (funext fun a => Fin.ext (by match a with | ⟨0, _⟩ => rfl | ⟨1, _⟩ => rfl))

/-- The zero every node word is compared with. -/
theorem v1_eq (i : S20480.Idx) : val_main_v1 (F := Ideal) i = 0#32 := by
  rw [val_main_v1_apply]; rfl

/-- The table height added to a negative node word. -/
theorem v3_eq (i : S20480.Idx) : val_main_v3 (F := Ideal) i = 50000#32 := by
  rw [val_main_v3_apply]; rfl

/-- The wrapped node word. -/
theorem v5_eq (n : Fin 20480) : val_main_v5 (F := Ideal) x0 (ix1 n) = Spec.wrapW (Spec.nodeAt x0 n) := by
  rw [val_main_v5_apply, val_main_v2_apply, val_main_v4_apply, v1_eq, v3_eq, v0_eq]
  rfl

/-- The same as a one-column array: the start indices of the first gather. -/
theorem v6_eq (n : Fin 20480) : val_main_v6 (F := Ideal) x0 (ix2 n 0) = Spec.wrapW (Spec.nodeAt x0 n) := by
  have e : idx_main_v6 (ix2 n (0 : Fin 1)) = ix1 n := funext fun a => Fin.ext (by match a with | ⟨0, _⟩ => rfl)
  rw [val_main_v6_apply, e, v5_eq]

/-- The first gather at (n, j) is the j-th neighbour word of node n. -/
theorem v7_eq (n : Fin 20480) (j : Fin 32) : val_main_v7 (F := Ideal) x0 x1 (ix2 n j) = Spec.neigh x0 x1 n j := by
  unfold val_main_v7 Spec.neigh Spec.rowOf
  rw [rec7_eq, Cert.Lib.RowPass.ga_apply _ (by decide)]
  refine congrArg x1 (congrArg (fun r : Fin 50000 => ix2 r j) (Fin.ext ?_))
  exact congrArg (fun x : BitVec 32 => min x.toInt.toNat (50000 - 1)) (v6_eq x0 n)

/-- The zero every neighbour word is compared with. -/
theorem v8_eq (i : S20480x32.Idx) : val_main_v8 (F := Ideal) i = 0#32 := by
  rw [val_main_v8_apply]; rfl

/-- The table height added to a negative neighbour word. -/
theorem v10_eq (i : S20480x32.Idx) : val_main_v10 (F := Ideal) i = 50000#32 := by
  rw [val_main_v10_apply]; rfl

/-- The wrapped neighbour word. -/
theorem v12_eq (n : Fin 20480) (j : Fin 32) :
    val_main_v12 (F := Ideal) x0 x1 (ix2 n j) = Spec.wrapW (Spec.neigh x0 x1 n j) := by
  rw [val_main_v12_apply, val_main_v9_apply, val_main_v11_apply, v8_eq, v10_eq, v7_eq]
  rfl

/-- The same with a unit last axis: the start indices of the second gather. -/
theorem v13_eq (n : Fin 20480) (j : Fin 32) :
    val_main_v13 (F := Ideal) x0 x1 (ix3 n j 0) = Spec.wrapW (Spec.neigh x0 x1 n j) := by
  have e : idx_main_v13 (ix3 n j (0 : Fin 1)) = ix2 n j :=
    funext fun a => Fin.ext (by match a with | ⟨0, _⟩ => rfl | ⟨1, _⟩ => rfl)
  rw [val_main_v13_apply, e, v12_eq]

/-- The second gather at (n, j, d) is feature d of the row of node n's j-th neighbour. -/
theorem v14_eq (n : Fin 20480) (j : Fin 32) (d : Fin 256) :
    val_main_v14 (F := Ideal) x0 x1 x2 (ix3 n j d) = x2 (ix2 (Spec.rowOf (Spec.neigh x0 x1 n j)) d) := by
  unfold val_main_v14 Spec.rowOf
  rw [rec14_eq, ga3_apply _ (by decide)]
  refine congrArg x2 (congrArg (fun r : Fin 50000 => ix2 r d) (Fin.ext ?_))
  exact congrArg (fun x : BitVec 32 => min x.toInt.toNat (50000 - 1)) (v13_eq x0 x1 n j)

/-- The mean over the 32 neighbours is node n's pooled feature d. -/
theorem v17_eq (n : Fin 20480) (d : Fin 256) :
    val_main_v17 (F := Ideal) x0 x1 x2 (ix2 n d) = Spec.feat x0 x1 x2 n d := by
  have e : ∀ k : Fin 32, idx_main_v15 (ix2 n d) k = ix3 n k d := fun k =>
    funext fun a => Fin.ext (by match a with | ⟨0, _⟩ => rfl | ⟨1, _⟩ => rfl | ⟨2, _⟩ => rfl)
  rw [val_main_v17_apply, val_main_v15_apply, val_main_v16_apply]
  simp only [e, v14_eq]
  rfl

/-- The positive part of the product at (n, c, k) is node n against weight row (c, k). -/
theorem v19_eq (n : Fin 20480) (c : Fin 8) (k : Fin 128) :
    val_main_v19 (F := Ideal) x0 x1 x2 x3 (ix3 n c k) = Spec.out x0 x1 x2 x3 n c k := by
  have el : ∀ d : Fin 256, lidx_main_v18 (ix3 n c k) d = ix2 n d := fun d =>
    funext fun a => Fin.ext (by match a with | ⟨0, _⟩ => rfl | ⟨1, _⟩ => rfl)
  have er : ∀ d : Fin 256, ridx_main_v18 (ix3 n c k) d = ix3 c k d := fun d =>
    funext fun a => Fin.ext (by match a with | ⟨0, _⟩ => rfl | ⟨1, _⟩ => rfl | ⟨2, _⟩ => rfl)
  rw [val_main_v19_apply, val_main_v18_apply, val_main_call0_v0_apply]
  simp only [el, er, v17_eq]
  rfl

end Stages

/-! ## The reference is the specification -/

/-- The reference program's result array is the specification's. -/
theorem ref_eq (x0 : IVec ⟨2, ![2048, 10]⟩ 32) (x1 : IVec ⟨2, ![50000, 32]⟩ 32)
    (x2 : (⟨2, ![50000, 256]⟩ : Shape).Idx → EReal) (x3 : (⟨3, ![8, 128, 256]⟩ : Shape).Idx → EReal) :
    Cert.ReferenceIdeal.Read.val_main_v20 (F := Ideal) x0 x1 x2 x3 = Cert.Spec.G x0 x1 x2 x3 := by
  funext i
  obtain ⟨b, s, c, k, rfl⟩ : ∃ (b : Fin 2048) (s : Fin 10) (c : Fin 8) (k : Fin 128), i = ix4 b s c k :=
    ⟨i 0, i 1, i 2, i 3, eq_ix4 i⟩
  have hb : b.val < 2048 := b.isLt
  have hs : s.val < 10 := s.isLt
  have hc : c.val < 8 := c.isLt
  have hk : k.val < 128 := k.isLt
  have e : idx_main_v20 (ix4 b s c k) = ix3 (⟨b.val * 10 + s.val, by omega⟩ : Fin 20480) c k :=
    funext fun a => Fin.ext (by
      match a with
      | ⟨0, _⟩ =>
        show (((b.val * 10 + s.val) * 8 + c.val) * 128 + k.val) / 1024 = b.val * 10 + s.val
        omega
      | ⟨1, _⟩ =>
        show (((b.val * 10 + s.val) * 8 + c.val) * 128 + k.val) / 128 % 8 = c.val
        omega
      | ⟨2, _⟩ =>
        show (((b.val * 10 + s.val) * 8 + c.val) * 128 + k.val) % 128 = k.val
        omega)
  rw [val_main_v20_apply, e, v19_eq]
  rfl

end Cert.ReferenceIdeal.RefValue

end
-- ==== Proof.KernelRun.lean ====
/-
  The kernel's run with its result named.

  The region multiplies a 20480 x 256 matrix A by a 256 x 1024 matrix B, twenty row blocks of 1024 rows at a time, and
  keeps the positive part: block t of the result is rows 1024 t ... 1024 t + 1023, and entry (p, q) of it is
  max (sum over d of A (1024 t + p, d) * B (d, q)) 0. The blocks tile the result, so the 20480 x 1024 array ends
  holding the positive part of the whole product; the reshape after the region lays it out as [2048, 10, 8, 128].
-/
import proofs.«427126_j1400159339188_1_alg».proof.Proof.Gen.KernelIdeal.Frame
import proofs.«427126_j1400159339188_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## One block of the product, entry by entry -/

/-- A row of the left factor is indexed by the result's row. -/
theorem lhs_row (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- Its column is the summation index. -/
theorem lhs_col (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right factor's row is the summation index. -/
theorem rhs_row (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- Its column is the result's column. -/
theorem rhs_col (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of a 1024 x 256 block with the 256 x 1024 matrix, accumulated from zero, at entry j: the inner product of
    row j 0 of the block with column j 1 of the matrix. -/
theorem matmul_apply_block (a : FVec Ideal S1024x256 .bf16) (b : FVec Ideal S256x1024 .bf16) (j : S1024x1024.Idx) :
    FloatOps.matmul dot_S1024x256_S256x1024_S1024x1024_1_0_0_1_n_n none a b (constant (F := Ideal) S1024x1024 .f32 0x00000000#32) j
      = ∑ d : Fin 256, a (ix2 (j 0) d) * b (ix2 d (j 1)) := by
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx j ((ValueIdx.contrEquiv1 dot_S1024x256_S256x1024_S1024x1024_1_0_0_1_n_n 256 rfl rfl).symm k) = ix2 (j 0) k := funext fun a => Fin.ext (by
    match a with
    | ⟨0, _⟩ => exact lhs_row _ _
    | ⟨1, _⟩ => exact (lhs_col _ _).trans hk)
  have er : dot_S1024x256_S256x1024_S1024x1024_1_0_0_1_n_n.rhsIdx j ((ValueIdx.contrEquiv1 dot_S1024x256_S256x1024_S1024x1024_1_0_0_1_n_n 256 rfl rfl).symm k) = ix2 k (j 1) := funext fun a => Fin.ext (by
    match a with
    | ⟨0, _⟩ => exact (rhs_row _ _).trans hk
    | ⟨1, _⟩ => exact rhs_col _ _)
  rw [el, er]
  rfl

/-- What the body stores for a 1024 x 256 block x0 and the matrix x1: the positive part of their product, entry by entry
    (the narrowing of both factors changes no value over the extended reals). -/
theorem payload_apply (x0 : Vec Ideal S1024x256 .f32) (x1 : Vec Ideal S256x1024 .f32) (j : S1024x1024.Idx) :
    k0_pay1 (F := Ideal) x0 x1 j
      = max (∑ d : Fin 256, x0 (ix2 (j 0) d) * x1 (ix2 d (j 1))) (Ideal.ofBits .f32 0x00000000#32) := by
  unfold k0_pay1
  rw [maximumf_apply, shapeCast_self, shapeCast_self]
  refine congrArg₂ max ?_ rfl
  exact matmul_apply_block _ _ j

/-! ## From blocks to the array -/

variable (m : (ℓ : Loc nD τ sig) → Buf (Elt Ideal) ℓ) (ρ : Dev nD → PrngReg)

theorem hz : (![0, 0] : Fin 2 → Nat) = fun _ => 0 := funext fun a => by fin_cases a <;> rfl

/-- Where the three windows stand at grid point t: the left factor's and the result's blocks are row block t, the right
    factor is read whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left factor's block at point t is row 1024 t + p of the left factor. -/
theorem lblock_apply (c : Dev nD) (t : Fin cfg0.N) (p : Fin 1024) (d : Fin 256) (r : Fin 20480)
    (hr : r.val = 1024 * t.val + p.val) :
    (iblk m c 0 t : Vec Ideal S1024x256 .f32) (ix2 p d) = (V m c main_v7 : S20480x256.Idx → EReal) (ix2 r d) := by
  obtain ⟨e0, e1, -, -, -, -⟩ := idx_facts t
  unfold iblk
  rw [View.read_apply]
  show V m c main_v7 _ = V m c main_v7 _
  congr 1
  funext a
  apply Fin.ext
  match a with
  | ⟨0, _⟩ => show win0_0.index t 0 * 1024 + 1 * p.val = r.val; rw [e0, hr]; omega
  | ⟨1, _⟩ => show win0_0.index t 1 * 256 + 1 * d.val = d.val; rw [e1]; omega

/-- The right factor's block at every point is the right factor. -/
theorem rblock_apply (c : Dev nD) (t : Fin cfg0.N) (d : Fin 256) (q : Fin 1024) :
    (iblk m c 1 t : Vec Ideal S256x1024 .f32) (ix2 d q) = (V m c main_v9 : S256x1024.Idx → EReal) (ix2 d q) := by
  obtain ⟨-, -, e2, e3, -, -⟩ := idx_facts t
  unfold iblk
  rw [View.read_apply]
  show V m c main_v9 _ = V m c main_v9 _
  congr 1
  funext a
  apply Fin.ext
  match a with
  | ⟨0, _⟩ => show win0_1.index t 0 * 256 + 1 * d.val = d.val; rw [e2]; omega
  | ⟨1, _⟩ => show win0_1.index t 1 * 1024 + 1 * q.val = q.val; rw [e3]; omega

/-- What grid point t writes back is row block t of the positive part of the whole product. -/
theorem flushed_eq (c : Dev nD) (t : Fin cfg0.N) :
    (dats m 0 c).flushed 2 t
      = ((cfg0.win 2).blk t).view.read (Elt Ideal) (Cert.Spec.prodRelu (V m c main_v7) (V m c main_v9)) := by
  show (cfg0.win 2).cut (grid0.coords t) ((dats m 0 c).after 2 t) = _
  rw [after0_2]
  unfold out0_2
  rw [View.canon_unit_zero hz]
  simp only [View.ld_unit_zero (S := S1024x256) hz, View.ld_unit_zero (S := S256x1024) hz]
  obtain ⟨-, -, -, -, e4, e5⟩ := idx_facts t
  funext j
  show k0_pay1 (F := Ideal) (iblk m c 0 t) (iblk m c 1 t) j
    = Cert.Spec.prodRelu (V m c main_v7) (V m c main_v9) (((cfg0.win 2).blk t).view.emb j)
  refine (payload_apply (iblk m c 0 t) (iblk m c 1 t) j).trans ?_
  unfold Cert.Spec.prodRelu
  refine congrArg₂ max (Finset.sum_congr rfl fun d _ => ?_) rfl
  have hj0 : (j 0).val < 1024 := (j 0).isLt
  have hj1 : (j 1).val < 1024 := (j 1).isLt
  have h0 : ((((cfg0.win 2).blk t).view.emb j) 0).val = 1024 * t.val + (j 0).val := by
    show win0_2.index t 0 * 1024 + 1 * (j 0).val = _; rw [e4]; omega
  have h1 : (((cfg0.win 2).blk t).view.emb j) 1 = j 1 := by
    apply Fin.ext
    show win0_2.index t 1 * 1024 + 1 * (j 1).val = _; rw [e5]; omega
  rw [h1]
  exact congrArg₂ (· * ·) (lblock_apply m c t (j 0) d _ h0) (rblock_apply m c t d (j 1))

/-- An index of the result array is in point t's block iff each coordinate is in the block's range on its axis. -/
theorem mem_blk (t : Fin cfg0.N) (i : S20480x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v10).slice (win0_2.rect t)).set ↔ _
  rw [View.set_slice_whole, Rect.mem_set_unit]
  exact Iff.rfl

/-- The twenty row blocks tile the result: row r is in the block of point r / 1024. -/
theorem cover (i : S20480x1024.Idx) :
    ∃ t : Fin cfg0.N, (cfg0.win 2).flush t = true ∧ i ∈ ((cfg0.win 2).blk t).view.set := by
  have hi0 : (i 0).val < 20480 := (i 0).isLt
  have hi1 : (i 1).val < 1024 := (i 1).isLt
  have hN : cfg0.N = 20 := N_0
  have ht : (i 0).val / 1024 < cfg0.N := by rw [hN]; omega
  obtain ⟨-, -, -, -, e4, e5⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ 0 * 1024 ≤ (i 0).val
      ∧ (i 0).val < win0_2.index ⟨(i 0).val / 1024, ht⟩ 0 * 1024 + 1024
    rw [e4]
    show (i 0).val / 1024 * 1024 ≤ (i 0).val ∧ (i 0).val < (i 0).val / 1024 * 1024 + 1024
    omega
  | ⟨1, _⟩ =>
    show win0_2.index ⟨(i 0).val / 1024, ht⟩ 1 * 1024 ≤ (i 1).val
      ∧ (i 1).val < win0_2.index ⟨(i 0).val / 1024, ht⟩ 1 * 1024 + 1024
    rw [e5]
    omega

/-- So the result array ends holding the positive part of the whole product. -/
theorem final (c : Dev nD) :
    (dats m 0 c).arrAt 2 cfg0.N = Cert.Spec.prodRelu (V m c main_v7) (V m c main_v9) :=
  (dats m 0 c).arrAt_eq_of_cover 2 (Cert.Spec.prodRelu (V m c main_v7) (V m c main_v9))
    (fun t _ => flushed_eq m c t) cover

/-! ## The reshape after the region -/

/-- The row-major relayout of a 20480 x 1024 matrix as [2048, 10, 8, 128], entry by entry: (b, s, c, k) reads
    (10 b + s, 128 c + k), both being position ((10 b + s) 8 + c) 128 + k of the flat order. -/
theorem reshape_apply (X : S20480x1024.Idx → EReal) (i : S2048x10x8x128.Idx) :
    shapeCast S2048x10x8x128 X shapeCasts_S20480x1024_S2048x10x8x128 i = Cert.Spec.relaid X i := by
  unfold Cert.Spec.relaid
  refine shapeCast_apply X shapeCasts_S20480x1024_S2048x10x8x128 i _ ?_
  rw [Shape.rowMajor_val_two, Shape.rowMajor_val_four]
  have h0 : (i 0).val < 2048 := (i 0).isLt
  have h1 : (i 1).val < 10 := (i 1).isLt
  have h2 : (i 2).val < 8 := (i 2).isLt
  have h3 : (i 3).val < 128 := (i 3).isLt
  show ((i 0).val * 10 + (i 1).val) * 1024 + ((i 2).val * 128 + (i 3).val)
    = (((i 0).val * 10 + (i 1).val) * 8 + (i 2).val) * 128 + (i 3).val
  omega

/-- After the reshape that follows the region, the last array holds the relaid positive part of the product. -/
theorem tail_eq (c : Dev nD) :
    Pipeline.afterTail₀ cfgs (dats m) 0 (V0 m) [hostOps1] c main_v11
      = Cert.Spec.relaid (Cert.Spec.prodRelu (V m c main_v7) (V m c main_v9)) := by
  unfold Pipeline.afterTail₀
  show StableHlo.after hostOps1 _ (Proc.devRef .tc main_v11) = _
  after_results
  have hw : Pipeline.withArrays spec0 c (V0 m c) (fun w => (dats m 0 c).arrAt w cfg0.N) (Proc.devRef .tc main_v10)
      = Cert.Spec.prodRelu (V m c main_v7) (V m c main_v9) :=
    (Pipeline.withArrays_arr spec0 launch0.win.arr_inj c _ _ 2).trans (final m c)
  funext i
  show shapeCast S2048x10x8x128
      (Pipeline.withArrays spec0 c (V0 m c) (fun w => (dats m 0 c).arrAt w cfg0.N) (Proc.devRef .tc main_v10))
      shapeCasts_S20480x1024_S2048x10x8x128 i = _
  rw [hw]
  exact reshape_apply _ i

/-! ## The run -/

/-- Every weakly fair execution of the program on the TensorCores terminates with the last array holding the relaid
    positive part of the product of the two arrays the region stages, and the four arguments as launched. -/
theorem kernel_run :
    θ_run (defs (F := Ideal)) (onTc (τ := τ) (main (F := Ideal))) ⟨m, fun _ => 0, ρ⟩ (fun r => ∀ c : Dev nD,
      r.2.mem ((c.tc : Thread nD τ).loc main_v11)
          = Cert.Spec.relaid (Cert.Spec.prodRelu (Gen.V m c main_v7) (Gen.V m c main_v9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v11 (Pipeline.mem_restRefs_of main_v11 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KValue

end
-- ==== Proof.KernelHost.lean ====
/-
  What the kernel's region finds in the two arrays it stages, as terms of the four arguments.

  Before the region the host flattens the node list, looks every node's 32 neighbours up in the adjacency table,
  flattens those, looks every neighbour's feature row up, regroups the rows by node, and averages each node's 32
  rows: that is the first staged array, 20480 x 256. It also flattens the weights to 1024 rows of 256 and
  transposes them: that is the second, 256 x 1024.

  Each look-up wraps a negative index, then tests the wrapped index against [0, 49999]; a row whose index passes
  is the gathered row, and a row whose index fails is filled with a fixed word.
-/
import proofs.«427126_j1400159339188_1_alg».proof.Proof.Gen.KernelIdeal.Frame
import Idealize.ShloMosaic.Lib.StableHlo.Run
import Idealize.ShloMosaic.Lib.Pipeline.Frame

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-! ## The look-up of the nodes' neighbours -/

/-- Every node index wrapped: x + 50000 where x < 0. -/
def wrapA (v : IVec S20480 32) : IVec S20480 32 :=
  select (cmpi .slt v (broadcastInDim S20480 ![] bcast_S_S20480 (constantI S_ 32 0#32)))
    (addi v (broadcastInDim S20480 ![] bcast_S_S20480 (constantI S_ 32 50000#32))) v

/-- The wrapped node indices as a column of start indices. -/
def colA (v : IVec S20480 32) : IVec S20480x1 32 :=
  broadcastInDim S20480x1 ![0] bcast_S20480_S20480x1_0 (wrapA v)

/-- Per node: does the wrapped index lie in [0, 49999]? -/
def okA (v : IVec S20480 32) : IVec S20480 1 :=
  Host.reduce IntOp.andi
    (andi (cmpi .sge (colA v) (broadcastInDim S20480x1 ![] bcast_S_S20480x1 (constantI S_ 32 0#32)))
      (cmpi .sle (colA v) (broadcastInDim S20480x1 ![0, 1] bcast_S1x1_S20480x1_0_1
        (broadcastInDim S1x1 ![1] bcast_S1_S1x1_1 (constantI S1 32 49999#32)))))
    (constantI S_ 1 1#1) reducesTo_S20480x1_S20480_d1 h_S_

/-- The neighbour lists: the adjacency row of every node whose index passes, a fill word elsewhere. -/
def takeA (adj : IVec S50000x32 32) (v : IVec S20480 32) : IVec S20480x32 32 :=
  select (broadcastInDim S20480x32 ![0] bcast_S20480_S20480x32_0 (okA v))
    (Host.gather gather_S50000x32_S20480x1_S20480x32_1_0_n_n_0_1_132 adj (colA v))
    (broadcastInDim S20480x32 ![] bcast_S_S20480x32 (constantI S_ 32 2147483648#32))

/-! ## The look-up of the neighbours' feature rows -/

/-- Every neighbour index wrapped. -/
def wrapB (v : IVec S655360 32) : IVec S655360 32 :=
  select (cmpi .slt v (broadcastInDim S655360 ![] bcast_S_S655360 (constantI S_ 32 0#32)))
    (addi v (broadcastInDim S655360 ![] bcast_S_S655360 (constantI S_ 32 50000#32))) v

/-- The wrapped neighbour indices as a column of start indices. -/
def colB (v : IVec S655360 32) : IVec S655360x1 32 :=
  broadcastInDim S655360x1 ![0] bcast_S655360_S655360x1_0 (wrapB v)

/-- Per neighbour: does the wrapped index lie in [0, 49999]? -/
def okB (v : IVec S655360 32) : IVec S655360 1 :=
  Host.reduce IntOp.andi
    (andi (cmpi .sge (colB v) (broadcastInDim S655360x1 ![] bcast_S_S655360x1 (constantI S_ 32 0#32)))
      (cmpi .sle (colB v) (broadcastInDim S655360x1 ![0, 1] bcast_S1x1_S655360x1_0_1
        (broadcastInDim S1x1 ![1] bcast_S1_S1x1_1 (constantI S1 32 49999#32)))))
    (constantI S_ 1 1#1) reducesTo_S655360x1_S655360_d1 h_S_

/-- The feature rows: the table's row of every neighbour whose index passes, a fill word elsewhere. -/
def takeB (feats : FVec F S50000x256 .f32) (v : IVec S655360 32) : FVec F S655360x256 .f32 :=
  select (broadcastInDim S655360x256 ![0] bcast_S655360_S655360x256_0 (okB v))
    (Host.gather gather_S50000x256_S655360x1_S655360x256_1_0_n_n_0_1_1256 feats (colB v))
    (broadcastInDim S655360x256 ![] bcast_S_S655360x256 (constant S_ .f32 0x7FC00000#32))

/-! ## The two staged arrays -/

/-- The neighbours of all nodes, flat: 655360 indices. -/
def neighFlat (nodes : IVec S2048x10 32) (adj : IVec S50000x32 32) : IVec S655360 32 :=
  shapeCast S655360 (takeA adj (shapeCast S20480 nodes shapeCasts_S2048x10_S20480)) shapeCasts_S20480x32_S655360

/-- The pooled features, 20480 x 256: each node's 32 gathered rows summed from zero and divided by 32. -/
def pooled (nodes : IVec S2048x10 32) (adj : IVec S50000x32 32) (feats : FVec F S50000x256 .f32) :
    FVec F S20480x256 .f32 :=
  Host.divf
    (Host.reduceAdd
      (shapeCast S20480x32x256 (takeB feats (neighFlat nodes adj)) shapeCasts_S655360x256_S20480x32x256)
      (constant S_ .f32 0x00000000#32) reducesTo_S20480x32x256_S20480x256_d1 h_S_)
    (broadcastInDim S20480x256 ![] bcast_S_S20480x256 (constant S_ .f32 0x42000000#32))

/-- The weights as 256 x 1024: flattened to 1024 rows of 256, then transposed. -/
def weightsT (w : FVec F S8x128x256 .f32) : FVec F S256x1024 .f32 :=
  transpose S256x1024 [1, 0] (shapeCast S1024x256 w shapeCasts_S8x128x256_S1024x256) transposes_S1024x256_S256x1024_1_0

/-! ## Stretch by stretch

Each stretch of host operations, run from any contents `X` of the buffers: what it leaves in the buffer the next
stretch reads, and that it leaves the argument buffers alone. -/

section Stretches

variable (X : Valuation τ sig (Elt F))

/-- The first stretch flattens the node list. -/
theorem stretch0 : after hostOps0 X (Proc.devRef .tc main_v0)
    = shapeCast S20480 (X (Proc.devRef .tc main_arg0)) shapeCasts_S2048x10_S20480 := by
  simp only [hostOps0]
  after_results
  rfl
theorem stretch0_arg1 : after hostOps0 X (Proc.devRef .tc main_arg1) = X (Proc.devRef .tc main_arg1) := by
  simp only [hostOps0]
  after_results
theorem stretch0_arg2 : after hostOps0 X (Proc.devRef .tc main_arg2) = X (Proc.devRef .tc main_arg2) := by
  simp only [hostOps0]
  after_results

/-- The second stretch looks the nodes' neighbours up. (An operation of a called function moves its operands and its
    result between a buffer's own type and the value's along an equation of types; written and read back, the two
    moves cancel.) -/
theorem stretch1 : after hostOps0_1 X (Proc.devRef .tc main_v1)
    = takeA (X (Proc.devRef .tc main_arg1)) (X (Proc.devRef .tc main_v0)) := by
  simp only [hostOps0_1]
  after_results_simp
  simp only [TRef.ofBuf, TRef.toBuf, cast_cast, cast_eq]
  unfold takeA okA colA wrapA
  rfl
theorem stretch1_arg2 : after hostOps0_1 X (Proc.devRef .tc main_arg2) = X (Proc.devRef .tc main_arg2) := by
  simp only [hostOps0_1]
  after_results

/-- The third stretch flattens the neighbour lists. -/
theorem stretch2 : after hostOps0_2 X (Proc.devRef .tc main_v2)
    = shapeCast S655360 (X (Proc.devRef .tc main_v1)) shapeCasts_S20480x32_S655360 := by
  simp only [hostOps0_2]
  after_results
  rfl
theorem stretch2_arg2 : after hostOps0_2 X (Proc.devRef .tc main_arg2) = X (Proc.devRef .tc main_arg2) := by
  simp only [hostOps0_2]
  after_results

/-- The fourth stretch looks the neighbours' feature rows up. -/
theorem stretch3 : after hostOps0_3 X (Proc.devRef .tc main_v3)
    = takeB (X (Proc.devRef .tc main_arg2)) (X (Proc.devRef .tc main_v2)) := by
  simp only [hostOps0_3]
  after_results_simp
  simp only [TRef.ofBuf, TRef.toBuf, cast_cast, cast_eq]
  unfold takeB okB colB wrapB
  rfl

/-- The fifth stretch regroups the rows by node and averages each node's 32 rows. -/
theorem stretch4 : after hostOps0_4 X (Proc.devRef .tc main_v7)
    = Host.divf
        (Host.reduceAdd (shapeCast S20480x32x256 (X (Proc.devRef .tc main_v3)) shapeCasts_S655360x256_S20480x32x256)
          (constant S_ .f32 0x00000000#32) reducesTo_S20480x32x256_S20480x256_d1 h_S_)
        (broadcastInDim S20480x256 ![] bcast_S_S20480x256 (constant S_ .f32 0x42000000#32)) := by
  simp only [hostOps0_4]
  after_results
  rfl

end Stretches

variable (m : (ℓ : Loc nD τ sig) → Buf (Elt F) ℓ)

/-- The region finds the transposed weights in the array its second window stages. -/
theorem V_main_v9 (c : Dev nD) :
    V m c main_v9 = weightsT (m ((c : Thread nD τ).loc main_arg3)) := by
  dsimp only [V, V0]
  simp only [hostOps0, hostOps0_1, hostOps0_2, hostOps0_3, hostOps0_4, List.flatten_cons, List.flatten_nil,
    List.append_nil, List.cons_append, List.nil_append]
  after_results_simp
  rfl

/-- The region finds the pooled features in the array its first window stages. -/
theorem V_main_v7 (c : Dev nD) :
    V m c main_v7 = pooled (m ((c : Thread nD τ).loc main_arg0)) (m ((c : Thread nD τ).loc main_arg1))
      (m ((c : Thread nD τ).loc main_arg2)) := by
  dsimp only [V, V0]
  rw [List.flatten_cons, List.flatten_cons, List.flatten_cons, List.flatten_cons, List.flatten_cons, List.flatten_nil,
    List.append_nil, after_append, after_append, after_append, after_append]
  rw [stretch4, stretch3, stretch2_arg2, stretch1_arg2, stretch0_arg2, stretch2, stretch1, stretch0_arg1, stretch0]
  rfl

end Cert.KernelIdeal.KHost

end
-- ==== Proof.KernelHostRead.lean ====
/-
  The two arrays the kernel's region stages, read entry by entry at the exact instance, when every node index and
  every adjacency entry x satisfies -50000 <= x < 50000.

  A look-up's range test then passes at every row (the wrapped index is a row number), so the looked-up row is the
  gathered row and the fill word is never used. The pooled features at (n, d) are therefore the mean over node n's 32
  neighbours of feature d of the neighbour's row, and the transposed weights at (d, j) are the weight at
  (j / 128, j % 128, d). Their product, rectified and laid out as [2048, 10, 8, 128], is the specified result.
-/
import proofs.«427126_j1400159339188_1_alg».proof.Proof.KernelHost
import proofs.«427126_j1400159339188_1_alg».proof.Proof.Spec
import proofs.«427126_j1400159339188_1_alg».proof.Proof.PreRange
import proofs.«427126_j1400159339188_1_alg».proof.Proof.LibRowGatherScatter
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KHost

open Cert.KernelIdeal Cert.KernelIdeal.Gen Cert.Spec Cert.PreRange
open Idealize.ShloMosaic Idealize.ShloMosaic.ValueIdx

/-- A selection by a set bit takes the first alternative. -/
theorem select_one {α : Type} (a b : α) : Scalar.select 1#1 a b = a := if_pos rfl

/-! ## The look-up of the nodes' neighbours -/

theorem wrapA_apply (v : IVec S20480 32) (i : S20480.Idx) : wrapA v i = wrapW (v i) := rfl

/-- The start index of node e is its wrapped index. -/
theorem colA_apply (v : IVec S20480 32) (e : Fin 20480) (u : Fin 1) : colA v (ix2 e u) = wrapW (v (ix1 e)) := by
  unfold colA
  rw [broadcastInDim_apply _ bcast_S20480_S20480x1_0 (wrapA v) (ix2 e u) (ix1 e) (fun a => match a with
    | ⟨0, _⟩ => by show e.val = if (20480 : Nat) = 1 then 0 else e.val; rw [if_neg (by decide)])]
  rfl

/-- Every node's range test passes. -/
theorem okA_one (v : IVec S20480 32) (hv : ∀ i, InRange (v i)) (j : S20480.Idx) : okA v j = 1#1 := by
  unfold okA
  refine reduce_andi_one _ _ _ _ j rfl (fun i => ?_)
  obtain ⟨e, u, rfl⟩ : ∃ (e : Fin 20480) (u : Fin 1), i = ix2 e u := ⟨i 0, i 1, eq_ix2 i⟩
  show IntOp.andi (IntOp.cmpi .sge (colA v (ix2 e u)) 0#32) (IntOp.cmpi .sle (colA v (ix2 e u)) 49999#32) = 1#1
  rw [colA_apply]
  exact mask_one (hv _)

/-- Node e's neighbour list is the adjacency row of its index. -/
theorem takeA_apply (adj : IVec S50000x32 32) (v : IVec S20480 32) (hv : ∀ i, InRange (v i)) (e : Fin 20480)
    (q : Fin 32) : takeA adj v (ix2 e q) = adj (ix2 (rowOf (v (ix1 e))) q) := by
  unfold takeA
  rw [select_apply, broadcastInDim_apply _ bcast_S20480_S20480x32_0 (okA v) (ix2 e q) (ix1 e) (fun a => match a with
    | ⟨0, _⟩ => by show e.val = if (20480 : Nat) = 1 then 0 else e.val; rw [if_neg (by decide)]),
    okA_one v hv, select_one]
  refine (Cert.Lib.RowPass.ga_apply (gather_S50000x32_S20480x1_S20480x32_1_0_n_n_0_1_132).wf (by decide) adj (colA v) e q).trans ?_
  refine congrArg (fun r : Fin 50000 => adj (ix2 r q)) (Fin.ext ?_)
  show min ((colA v) (ix2 e 0)).toInt.toNat (50000 - 1) = min (wrapW (v (ix1 e))).toInt.toNat (50000 - 1)
  rw [colA_apply]

/-- The flat node list at e is node e. -/
theorem flatNodes_apply (nodes : IVec S2048x10 32) (e : Fin 20480) :
    shapeCast S20480 nodes shapeCasts_S2048x10_S20480 (ix1 e) = nodeAt nodes e := by
  unfold nodeAt
  exact shapeCast_apply nodes shapeCasts_S2048x10_S20480 (ix1 e) _ (by
    rw [Shape.rowMajor_val_two, Shape.rowMajor_val_one]
    show e.val / 10 * 10 + e.val % 10 = e.val
    omega)

theorem flatNodes_inRange (nodes : IVec S2048x10 32) (hn : ∀ i, InRange (nodes i)) (i : S20480.Idx) :
    InRange (shapeCast S20480 nodes shapeCasts_S2048x10_S20480 i) := by
  obtain ⟨e, rfl⟩ : ∃ e : Fin 20480, i = ix1 e := ⟨i 0, eq_ix1 i⟩
  rw [flatNodes_apply]
  exact hn _

/-- The flat neighbour list at 32 n + j is neighbour j of node n. -/
theorem neighFlat_apply (nodes : IVec S2048x10 32) (adj : IVec S50000x32 32) (hn : ∀ i, InRange (nodes i))
    (n : Fin 20480) (j : Fin 32) :
    neighFlat nodes adj (ix1 ⟨n.val * 32 + j.val, by have := n.isLt; have := j.isLt; omega⟩) = neigh nodes adj n j := by
  unfold neighFlat neigh
  rw [shapeCast_apply _ shapeCasts_S20480x32_S655360 (ix1 ⟨n.val * 32 + j.val, by have := n.isLt; have := j.isLt; omega⟩)
    (ix2 n j) (by
      rw [Shape.rowMajor_val_two, Shape.rowMajor_val_one]
      show n.val * 32 + j.val = n.val * 32 + j.val
      rfl),
    takeA_apply adj _ (flatNodes_inRange nodes hn) n j, flatNodes_apply]

theorem neighFlat_inRange (nodes : IVec S2048x10 32) (adj : IVec S50000x32 32) (hn : ∀ i, InRange (nodes i))
    (ha : ∀ i, InRange (adj i)) (i : S655360.Idx) : InRange (neighFlat nodes adj i) := by
  obtain ⟨p, rfl⟩ : ∃ p : Fin 655360, i = ix1 p := ⟨i 0, eq_ix1 i⟩
  have hp : p.val < 655360 := p.isLt
  have e : p = ⟨(⟨p.val / 32, by omega⟩ : Fin 20480).val * 32 + (⟨p.val % 32, by omega⟩ : Fin 32).val,
      by show p.val / 32 * 32 + p.val % 32 < 655360; omega⟩ :=
    Fin.ext (by show p.val = p.val / 32 * 32 + p.val % 32; omega)
  rw [e, neighFlat_apply nodes adj hn]
  exact ha _

/-! ## The look-up of the neighbours' feature rows -/

theorem wrapB_apply (v : IVec S655360 32) (i : S655360.Idx) : wrapB v i = wrapW (v i) := rfl

theorem colB_apply (v : IVec S655360 32) (p : Fin 655360) (u : Fin 1) : colB v (ix2 p u) = wrapW (v (ix1 p)) := by
  unfold colB
  rw [broadcastInDim_apply _ bcast_S655360_S655360x1_0 (wrapB v) (ix2 p u) (ix1 p) (fun a => match a with
    | ⟨0, _⟩ => by show p.val = if (655360 : Nat) = 1 then 0 else p.val; rw [if_neg (by decide)])]
  rfl

theorem okB_one (v : IVec S655360 32) (hv : ∀ i, InRange (v i)) (j : S655360.Idx) : okB v j = 1#1 := by
  unfold okB
  refine reduce_andi_one _ _ _ _ j rfl (fun i => ?_)
  obtain ⟨p, u, rfl⟩ : ∃ (p : Fin 655360) (u : Fin 1), i = ix2 p u := ⟨i 0, i 1, eq_ix2 i⟩
  show IntOp.andi (IntOp.cmpi .sge (colB v (ix2 p u)) 0#32) (IntOp.cmpi .sle (colB v (ix2 p u)) 49999#32) = 1#1
  rw [colB_apply]
  exact mask_one (hv _)

/-- Neighbour p's feature row is the table's row of its index. -/
theorem takeB_apply (feats : FVec Ideal S50000x256 .f32) (v : IVec S655360 32) (hv : ∀ i, InRange (v i))
    (p : Fin 655360) (d : Fin 256) : takeB feats v (ix2 p d) = feats (ix2 (rowOf (v (ix1 p))) d) := by
  unfold takeB
  rw [select_apply, broadcastInDim_apply _ bcast_S655360_S655360x256_0 (okB v) (ix2 p d) (ix1 p) (fun a => match a with
    | ⟨0, _⟩ => by show p.val = if (655360 : Nat) = 1 then 0 else p.val; rw [if_neg (by decide)]),
    okB_one v hv, select_one]
  refine (Cert.Lib.RowPass.ga_apply (gather_S50000x256_S655360x1_S655360x256_1_0_n_n_0_1_1256).wf (by decide) feats (colB v) p d).trans ?_
  refine congrArg (fun r : Fin 50000 => feats (ix2 r d)) (Fin.ext ?_)
  show min ((colB v) (ix2 p 0)).toInt.toNat (50000 - 1) = min (wrapW (v (ix1 p))).toInt.toNat (50000 - 1)
  rw [colB_apply]

/-! ## The two staged arrays at an entry -/

/-- A quotient of two arrays at an entry is the quotient of the entries. -/
theorem divf_entry (a b : FVec Ideal S20480x256 .f32) (i : S20480x256.Idx) : Host.divf a b i = Ideal.div (a i) (b i) := rfl

/-- The array that holds the word of 32 everywhere, at an entry. -/
theorem thirtyTwo_entry (i : S20480x256.Idx) :
    (broadcastInDim S20480x256 ![] bcast_S_S20480x256 (constant (F := Ideal) S_ .f32 0x42000000#32)) i
      = Ideal.ofBits .f32 0x42000000#32 := rfl

/-- A [20480, 32, 256] array summed over its middle axis from zero, at (n, d). -/
theorem sumMiddle_entry (T : FVec Ideal S20480x32x256 .f32) (n : Fin 20480) (d : Fin 256) :
    Host.reduceAdd T (constant S_ .f32 0x00000000#32) reducesTo_S20480x32x256_S20480x256_d1 h_S_ (ix2 n d)
      = Ideal.ofBits .f32 0x00000000#32 + ∑ k : Fin 32, T (ix3 n k d) := by
  simp only [Host.reduceAdd, Ideal.hostReduceAdd_def]
  rw [Ideal.hostReduceAdd_single reducesTo_S20480x32x256_S20480x256_d1 (by decide)]
  refine congrArg (_ + ·) (Finset.sum_congr rfl fun k _ => ?_)
  exact congrArg T (funext fun a => Fin.ext (by match a with | ⟨0, _⟩ => rfl | ⟨1, _⟩ => rfl | ⟨2, _⟩ => rfl))

/-- A [20480, 32, 256] array summed over its middle axis from zero and divided by 32, at (n, d). -/
theorem mean_apply (T : FVec Ideal S20480x32x256 .f32) (n : Fin 20480) (d : Fin 256) :
    Host.divf (Host.reduceAdd T (constant S_ .f32 0x00000000#32) reducesTo_S20480x32x256_S20480x256_d1 h_S_)
        (broadcastInDim S20480x256 ![] bcast_S_S20480x256 (constant S_ .f32 0x42000000#32)) (ix2 n d)
      = Ideal.div (Ideal.ofBits .f32 0x00000000#32 + ∑ k : Fin 32, T (ix3 n k d)) (Ideal.ofBits .f32 0x42000000#32) := by
  rw [divf_entry, thirtyTwo_entry, sumMiddle_entry]

/-- The pooled features at (n, d): the mean over node n's 32 neighbours of feature d of the neighbour's row. -/
theorem pooled_apply (nodes : IVec S2048x10 32) (adj : IVec S50000x32 32) (feats : FVec Ideal S50000x256 .f32)
    (hn : ∀ i, InRange (nodes i)) (ha : ∀ i, InRange (adj i)) (n : Fin 20480) (d : Fin 256) :
    pooled nodes adj feats (ix2 n d) = feat nodes adj feats n d := by
  unfold pooled feat
  rw [mean_apply]
  refine congrArg (fun s => Ideal.div (Ideal.ofBits .f32 0x00000000#32 + s) (Ideal.ofBits .f32 0x42000000#32))
    (Finset.sum_congr rfl fun k _ => ?_)
  rw [shapeCast_apply _ shapeCasts_S655360x256_S20480x32x256 (ix3 n k d)
    (ix2 (⟨n.val * 32 + k.val, by have := n.isLt; have := k.isLt; omega⟩ : Fin 655360) d) (by
      rw [Shape.rowMajor_val_two, Shape.rowMajor_val_three]
      show (n.val * 32 + k.val) * 256 + d.val = (n.val * 32 + k.val) * 256 + d.val
      rfl),
    takeB_apply feats _ (neighFlat_inRange nodes adj hn ha), neighFlat_apply nodes adj hn]

/-- The transposed weights at (d, j): the weight at (j / 128, j % 128, d). -/
theorem weightsT_apply (w : FVec Ideal S8x128x256 .f32) (d : Fin 256) (j : Fin 1024) :
    weightsT w (ix2 d j)
      = w (ix3 (⟨j.val / 128, by have := j.isLt; omega⟩ : Fin 8) (⟨j.val % 128, by omega⟩ : Fin 128) d) := by
  unfold weightsT
  rw [transpose_ix2_apply]
  exact shapeCast_apply w shapeCasts_S8x128x256_S1024x256 (ix2 j d) _ (by
    rw [Shape.rowMajor_val_three, Shape.rowMajor_val_two]
    show (j.val / 128 * 128 + j.val % 128) * 256 + d.val = j.val * 256 + d.val
    have := j.isLt
    omega)

/-- The product of the two staged arrays, rectified and laid out as [2048, 10, 8, 128], is the specified result. -/
theorem staged_eq (nodes : IVec S2048x10 32) (adj : IVec S50000x32 32) (feats : FVec Ideal S50000x256 .f32)
    (w : FVec Ideal S8x128x256 .f32) (hn : ∀ i, InRange (nodes i)) (ha : ∀ i, InRange (adj i)) :
    relaid (prodRelu (pooled nodes adj feats) (weightsT w)) = G nodes adj feats w := by
  funext i
  have h0 : (i 0).val < 2048 := (i 0).isLt
  have h1 : (i 1).val < 10 := (i 1).isLt
  have h2 : (i 2).val < 8 := (i 2).isLt
  have h3 : (i 3).val < 128 := (i 3).isLt
  unfold relaid prodRelu G out
  refine congrArg (max · (Ideal.ofBits .f32 0x00000000#32)) (Finset.sum_congr rfl fun d _ => ?_)
  rw [pooled_apply nodes adj feats hn ha, weightsT_apply]
  have e2 : (⟨((i 2).val * 128 + (i 3).val) / 128, by omega⟩ : Fin 8) = i 2 := Fin.ext (by show ((i 2).val * 128 + (i 3).val) / 128 = (i 2).val; omega)
  have e3 : (⟨((i 2).val * 128 + (i 3).val) % 128, by omega⟩ : Fin 128) = i 3 := Fin.ext (by show ((i 2).val * 128 + (i 3).val) % 128 = (i 3).val; omega)
  exact congrArg₂ (fun a b => feat nodes adj feats _ d * w (ix3 a b d)) e2 e3

end Cert.KernelIdeal.KHost

end
-- ==== Proof.lean ====
/-
  A neighbour-pooling layer followed by a per-node projection, computed two ways.

  Inputs: a list of 2048 x 10 node indices, an adjacency table giving each of 50000 nodes 32 neighbour indices, a
  table of 256 features for each of 50000 nodes, and 8 x 128 weight rows of 256 entries. For every listed node the
  32 neighbours' feature rows are averaged, and the averaged row is multiplied with every weight row; the result
  is the positive part, laid out as [2048, 10, 8, 128].

  The reference gathers twice (a gather clamps a start index into the table), sums, divides by 32, contracts
  with the weights over the 256 features and takes the maximum with zero. The kernel side gathers twice with a
  range test on every index (a row whose index fails the test is filled with a fixed word), averages the same
  way, transposes the flattened weights, and computes the 20480 x 1024 product block by block — 20 blocks of
  1024 rows, each a product into a zero accumulator followed by the maximum with zero — before laying it out.

  Under the precondition every node index and every adjacency entry x satisfies -50000 <= x < 50000, so every
  wrapped index is a row number, every range test passes, and clamping changes nothing: both sides read the same
  rows. On the extended reals a change of float format is the identity and a product into a zero accumulator is the
  plain sum of products, so both results are one function of the arguments (`Cert.Spec.G`), entry by entry; no
  law of arithmetic beyond that is used, and finiteness of the float inputs is not needed.
-/
import proofs.«427126_j1400159339188_1_alg».proof.Defs
import proofs.«427126_j1400159339188_1_alg».proof.Proof.Gen.Kernel
import proofs.«427126_j1400159339188_1_alg».proof.Proof.Gen.Kernel.Skeleton
import proofs.«427126_j1400159339188_1_alg».proof.Proof.Gen.Kernel.Launch
import proofs.«427126_j1400159339188_1_alg».proof.Proof.Gen.Kernel.Points
import proofs.«427126_j1400159339188_1_alg».proof.Proof.Gen.Kernel.Frame
import proofs.«427126_j1400159339188_1_alg».proof.Proof.Gen.KernelIdeal
import proofs.«427126_j1400159339188_1_alg».proof.Proof.Gen.KernelIdeal.Skeleton
import proofs.«427126_j1400159339188_1_alg».proof.Proof.Gen.KernelIdeal.Launch
import proofs.«427126_j1400159339188_1_alg».proof.Proof.Gen.KernelIdeal.Points
import proofs.«427126_j1400159339188_1_alg».proof.Proof.Gen.KernelIdeal.Frame
import proofs.«427126_j1400159339188_1_alg».proof.Proof.Gen.ReferenceIdeal
import proofs.«427126_j1400159339188_1_alg».proof.Proof.Gen.ReferenceIdeal.Run
import proofs.«427126_j1400159339188_1_alg».proof.Proof.Gen.ReferenceIdeal.Read
import proofs.«427126_j1400159339188_1_alg».proof.Proof.Gen.Pre_finite_inputs
import proofs.«427126_j1400159339188_1_alg».proof.Proof.Spec
import proofs.«427126_j1400159339188_1_alg».proof.Proof.PreRange
import proofs.«427126_j1400159339188_1_alg».proof.Proof.RefValue
import proofs.«427126_j1400159339188_1_alg».proof.Proof.KernelRun
import proofs.«427126_j1400159339188_1_alg».proof.Proof.KernelHost
import proofs.«427126_j1400159339188_1_alg».proof.Proof.KernelHostRead
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the specified array of the kernel's arguments: the kernel by
    its run over the two staged arrays read entry by entry under the index ranges, the reference by its run read
    entry by entry. -/
theorem algebraic : Cert.algebraic_KernelIdeal_ReferenceIdeal := by
  intro m ρ m' ρ' hpre hagree
  have hr : ∀ c : Dev Cert.KernelIdeal.nD,
      (∀ i, Cert.Spec.InRange (m ((c.tc : Thread Cert.KernelIdeal.nD Cert.KernelIdeal.τ).loc Cert.KernelIdeal.main_arg0) i))
      ∧ (∀ i, Cert.Spec.InRange (m ((c.tc : Thread Cert.KernelIdeal.nD Cert.KernelIdeal.τ).loc Cert.KernelIdeal.main_arg1) i)) :=
    fun c => Cert.PreRange.ranges_of_pre _ _ _ _ (hpre c)
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.KValue.kernel_run m ρ)
    rw [Cert.KernelIdeal.KHost.V_main_v7, Cert.KernelIdeal.KHost.V_main_v9]
    exact Cert.KernelIdeal.KHost.staged_eq _ _ _ _ (hr c).1 (hr c).2
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
